-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S_ : Shape := ⟨0, ![]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 14
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S4x16x2048x64, .f32⟩
  | .hbm, ⟨5, _⟩ => ⟨S4x16x2048x64, .f32⟩
  | .hbm, ⟨6, _⟩ => ⟨S4x16x2048x64, .bf16⟩
  | .hbm, ⟨7, _⟩ => ⟨S64x2048x64, .bf16⟩
  | .hbm, ⟨8, _⟩ => ⟨S4x16x2048x64, .bf16⟩
  | .hbm, ⟨9, _⟩ => ⟨S64x2048x64, .bf16⟩
  | .hbm, ⟨10, _⟩ => ⟨S4x16x2048x64, .bf16⟩
  | .hbm, ⟨11, _⟩ => ⟨S64x2048x64, .bf16⟩
  | .hbm, ⟨12, _⟩ => ⟨S64x2048x64, .f32⟩
  | .hbm, ⟨13, _⟩ => ⟨S4x16x2048x64, .f32⟩
  | .local _ .vmem, ⟨0, _⟩ => ⟨S1x1024x64, .bf16⟩
  | .local _ .vmem, ⟨1, _⟩ => ⟨S1x1024x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4x16x2048x64 : S_.BroadcastsInDim S4x16x2048x64 (![] : Fin 0 → Fin S4x16x2048x64.rank)
  bitsLt_bf16_f32 : FTy.bits .bf16 < FTy.bits .f32
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  shapeCasts_S64x2048x64_S4x16x2048x64 : S64x2048x64.ShapeCasts S4x16x2048x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .bf16 = 32 ∨ (Rect.block (s := S64x2048x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .bf16 = 32 ∨ (Rect.block (s := S64x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .bf16 = 32 ∨ (Rect.block (s := S64x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v3) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.LibSoftmax.lean ====
/-
  Attention over ONE query row, on the extended reals.

  A row of scores `s : Fin n → EReal` has a largest entry `rowMax s` (the fold of `max` from −∞), weights
  `weight s j = exp (s j − rowMax s)`, and against a column of values `v` two ways to take the weighted mean:
  `attend` divides the weighted sum of the values by the sum of the weights ONCE, at the end;
  `attendNormalised` divides each weight by the sum of the weights first and then sums the products.
  Where every score and every value is a real number and the row is not empty, the row's largest entry is a real,
  every weight is a positive real, so their sum is a nonzero real, and the two means agree: division by a nonzero
  real is multiplication by its reciprocal, which moves across a finite sum of reals. At an infinite entry the law
  fails (a product with the reciprocal does not distribute over `⊤ + ⊥`), which is why the reals are asked for.

  The scores themselves: a dot product of a row scaled by a real `c` against a key row is the dot product of the two
  rows, scaled by `c` afterwards — again for real entries only.
-/
import Idealize.ShloMosaic.PureOps.Ideal
import Idealize.ShloMosaic.PureOps.Ideal.Laws

noncomputable section

open scoped BigOperators

namespace Cert.Softmax

open Idealize.ShloMosaic

/-! ## Finite sums and maxima of reals, read in the extended reals -/

/-- The cast of a finite sum of reals is the sum of the casts. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The fold of `max` from −∞ over a finite family of reals is −∞ when the family is empty and a real otherwise. -/
theorem fold_max_coe {ι : Type*} (t : Finset ι) (f : ι → ℝ) :
    (t = ∅ ∧ t.fold max (⊥ : EReal) (fun i => (f i : EReal)) = ⊥)
      ∨ ∃ M : ℝ, t.fold max (⊥ : EReal) (fun i => (f i : EReal)) = (M : EReal) := by
  classical
  induction t using Finset.induction_on with
  | empty => exact Or.inl ⟨rfl, Finset.fold_empty⟩
  | insert a t ha ih =>
    right
    rcases ih with ⟨-, h⟩ | ⟨M, h⟩
    · exact ⟨f a, by rw [Finset.fold_insert ha, h]; exact max_bot_right _⟩
    · exact ⟨max (f a) M, by rw [Finset.fold_insert ha, h]; exact (EReal.coe_strictMono.monotone.map_max).symm⟩

/-! ## One row -/

/-- The largest entry of a row, from −∞. -/
def rowMax {n : Nat} (s : Fin n → EReal) : EReal := (Finset.univ : Finset (Fin n)).fold max ⊥ s

/-- The weight of column `j`: the exponential of its score's distance below the row's largest. -/
def weight {n : Nat} (s : Fin n → EReal) (j : Fin n) : EReal := Ideal.exp (s j - rowMax s)

/-- The weighted mean of the values, the division done once, after the sums. -/
def attend {n : Nat} (s v : Fin n → EReal) : EReal := Ideal.div (∑ j, weight s j * v j) (∑ j, weight s j)

/-- The weighted mean of the values, each weight divided by the sum of the weights before the products are summed. -/
def attendNormalised {n : Nat} (s v : Fin n → EReal) : EReal := ∑ j, Ideal.div (weight s j) (∑ k, weight s k) * v j

/-- A nonempty row of reals has a real largest entry. -/
theorem rowMax_coe {n : Nat} (hn : 0 < n) (s : Fin n → ℝ) : ∃ M : ℝ, rowMax (fun j => (s j : EReal)) = (M : EReal) := by
  rcases fold_max_coe (Finset.univ : Finset (Fin n)) s with ⟨h, -⟩ | h
  · exact absurd h (Finset.univ_nonempty_iff.mpr ⟨⟨0, hn⟩⟩).ne_empty
  · exact h

/-- On a nonempty row of real scores against real values the two means are one number. -/
theorem attendNormalised_eq_attend {n : Nat} (hn : 0 < n) (s v : Fin n → EReal) (hs : ∀ j, ∃ r : ℝ, s j = (r : EReal))
    (hv : ∀ j, ∃ r : ℝ, v j = (r : EReal)) : attendNormalised s v = attend s v := by
  choose sr hsr using hs
  choose vr hvr using hv
  obtain rfl : s = fun j => (sr j : EReal) := funext hsr
  obtain rfl : v = fun j => (vr j : EReal) := funext hvr
  obtain ⟨M, hM⟩ := rowMax_coe hn sr
  have hw : ∀ j, weight (fun j => (sr j : EReal)) j = ((Real.exp (sr j - M) : ℝ) : EReal) := fun j => by
    unfold weight; rw [hM, ← EReal.coe_sub, Ideal.exp_coe]
  have hZ : ∑ j, weight (fun j => (sr j : EReal)) j = ((∑ j, Real.exp (sr j - M) : ℝ) : EReal) := by
    rw [coe_sum]; exact Finset.sum_congr rfl fun j _ => hw j
  have hZpos : (0 : ℝ) < ∑ j, Real.exp (sr j - M) :=
    Finset.sum_pos (fun j _ => Real.exp_pos _) ⟨⟨0, hn⟩, Finset.mem_univ _⟩
  unfold attendNormalised attend
  rw [hZ]
  simp only [hw, Ideal.div_coe hZpos.ne', ← EReal.coe_mul]
  rw [← coe_sum, ← coe_sum, ← EReal.coe_mul]
  congr 1
  rw [Finset.sum_mul]
  exact Finset.sum_congr rfl fun j _ => by ring

/-! ## The scores -/

/-- A dot product of real rows, one of them scaled by a real first, is a real. -/
theorem scaled_dot_real {d : Nat} (q k : Fin d → EReal) (c : ℝ) (hq : ∀ i, ∃ r : ℝ, q i = (r : EReal))
    (hk : ∀ i, ∃ r : ℝ, k i = (r : EReal)) : ∃ r : ℝ, ∑ i, (q i * (c : EReal)) * k i = (r : EReal) := by
  choose qr hqr using hq
  choose kr hkr using hk
  obtain rfl : q = fun i => (qr i : EReal) := funext hqr
  obtain rfl : k = fun i => (kr i : EReal) := funext hkr
  refine ⟨∑ i, qr i * c * kr i, ?_⟩
  rw [coe_sum]
  exact Finset.sum_congr rfl fun i _ => by rw [EReal.coe_mul, EReal.coe_mul]

/-- Scaling one real row by a real before the dot product, or the dot product after it, is the same. -/
theorem scaled_dot {d : Nat} (q k : Fin d → EReal) (c : ℝ) (hq : ∀ i, ∃ r : ℝ, q i = (r : EReal))
    (hk : ∀ i, ∃ r : ℝ, k i = (r : EReal)) : ∑ i, (q i * (c : EReal)) * k i = (∑ i, q i * k i) * (c : EReal) := by
  choose qr hqr using hq
  choose kr hkr using hk
  obtain rfl : q = fun i => (qr i : EReal) := funext hqr
  obtain rfl : k = fun i => (kr i : EReal) := funext hkr
  simp only [← EReal.coe_mul]
  rw [← coe_sum, ← coe_sum, ← EReal.coe_mul]
  congr 1
  rw [Finset.sum_mul]
  exact Finset.sum_congr rfl fun i _ => by ring

/-! ## The two float words the programs spell -/

/-- The word `0x3E000000` denotes the real one eighth. -/
theorem ofBits_eighth : Ideal.ofBits .f32 0x3E000000#32 = ((0.125 : ℝ) : EReal) := by
  simp [Ideal.ofBits, Ideal.ieee, -EReal.coe_mul]; norm_num

/-- The word `0xFF800000` denotes −∞. -/
theorem ofBits_neg_inf : Ideal.ofBits .f32 0xFF800000#32 = ⊥ := by
  simp [Ideal.ofBits, Ideal.ieee]

end Cert.Softmax

end
-- ==== Proof.Row.lean ====
/-
  The kernel body's result, read at one element.

  At a grid point the body holds a block of 1024 query rows (already scaled), and all 2048 key rows and value rows of
  one (batch, head). Its stored block at row `r`, column `e` is the deferred-normalisation mean of this row's
  scores against the value column `e`: the scores are the dot products of query row `r` with every key row, their
  largest is taken along the row, the weights are the exponentials of the distances below it, the weighted sum of the
  value column is one matrix product and the sum of the weights one row sum, and the quotient is taken last.
  Each step below reads one of the body's vector operations at an index; the last theorem chains them.
-/
import proofs.«419945_j7215545057961_3_alg».proof.Proof.Gen.KernelIdeal.Skeleton
import proofs.«419945_j7215545057961_3_alg».proof.Proof.LibSoftmax
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx Cert.Softmax

/-! ## The unit axis of a block -/

/-- A block of shape [1, n, 64] viewed as [n, 64] reads row `a`, column `b` at (0, a, b). -/
theorem dropUnit_apply {α : Type} {n : Nat} (x : (⟨3, ![1, n, 64]⟩ : Shape).Idx → α)
    (h : (⟨3, ![1, n, 64]⟩ : Shape).ShapeCasts ⟨2, ![n, 64]⟩) (a : Fin n) (b : Fin 64) :
    shapeCast ⟨2, ![n, 64]⟩ x h (ix2 a b) = x (ix3 0 a b) := by
  refine (shapeCast_dropUnit_apply ![n, 64] x h (ix2 a b)).trans (congrArg x (funext fun i => ?_))
  match i with | ⟨0, _⟩ => rfl | ⟨1, _⟩ => rfl | ⟨2, _⟩ => rfl

/-- A [1024, 64] value stored as a [1, 1024, 64] block reads (z, a, b) at row `a`, column `b`. -/
theorem addUnit_apply {α : Type} (v : (⟨2, ![1024, 64]⟩ : Shape).Idx → α)
    (h : (⟨2, ![1024, 64]⟩ : Shape).ShapeCasts ⟨3, ![1, 1024, 64]⟩) (z : Fin 1) (a : Fin 1024) (b : Fin 64) :
    shapeCast ⟨3, ![1, 1024, 64]⟩ v h (ix3 z a b) = v (ix2 a b) := by
  refine (shapeCast_addUnit_apply ![1024, 64] v h (ix3 z a b)).trans (congrArg v (funext fun i => ?_))
  match i with | ⟨0, _⟩ => rfl | ⟨1, _⟩ => rfl

/-! ## A per-row quantity spread back over the row -/

/-- A vector of one entry per row, viewed as a column and broadcast along a row of `n` columns, reads the row's entry. -/
theorem column_apply {α : Type} {n : Nat} (w : (⟨1, ![1024]⟩ : Shape).Idx → α)
    (h1 : (⟨1, ![1024]⟩ : Shape).ShapeCasts ⟨2, ![1024, 1]⟩) (h2 : (⟨2, ![1024, 1]⟩ : Shape).Broadcasts ⟨2, ![1024, n]⟩)
    (a : Fin 1024) (b : Fin n) :
    broadcastTo ⟨2, ![1024, n]⟩ (shapeCast ⟨2, ![1024, 1]⟩ w h1) h2 (ix2 a b) = w (ix1 a) := by
  refine (broadcastTo_apply _ h2 (ix2 a b) (ix2 a (0 : Fin 1)) fun i => ?_).trans ?_
  · match i with
    | ⟨0, _⟩ => show a.val = if (1024 : Nat) = 1 then 0 else a.val; rw [if_neg (by decide)]
    | ⟨1, _⟩ => show 0 = if (1 : Nat) = 1 then 0 else b.val; rw [if_pos rfl]
  · refine shapeCast_apply w h1 (ix2 a (0 : Fin 1)) (ix1 a) ?_
    rw [Shape.rowMajor_val_one, Shape.rowMajor_val_two]
    show a.val = a.val * 1 + 0
    omega

/-! ## The two reductions along a row -/

/-- The coordinate inserted on the row axis of a reduced index is the column. -/
theorem lift_row (h : S1024x2048.Reduces [1] S1024) (a : Fin 1024) (j : Fin 2048) : h.lift (ix1 a) j = ix2 a j :=
  funext fun i => Fin.ext (by match i with | ⟨0, _⟩ => rfl | ⟨1, _⟩ => rfl)

/-- The row maximum from −∞ is the largest entry of the row. -/
theorem rowMax_apply (X : FVec Ideal S1024x2048 .f32) (h : S1024x2048.Reduces [1] S1024) (hφ : FKind.Formats .f32)
    (hacc : (0xFF800000#32 : BitVec 32) = FKind.maximumf.neutral .f32 hφ) (a : Fin 1024) :
    multiReduction .maximumf [1] S1024 X 0xFF800000#32 h hφ hacc (ix1 a) = rowMax (fun j : Fin 2048 => X (ix2 a j)) := by
  rw [Ideal.multiReduction_maximumf_single]
  unfold rowMax
  have hf : (X ∘ h.lift (ix1 a)) = fun j : Fin 2048 => X (ix2 a j) := funext fun j => congrArg X (lift_row h a j)
  rw [hf]
  show Finset.fold max (Ideal.ofBits .f32 0xFF800000#32) _ _ = _
  rw [ofBits_neg_inf]
  rfl

/-- The row sum from zero is the sum of the row's entries. -/
theorem rowSum_apply (X : FVec Ideal S1024x2048 .f32) (h : S1024x2048.Reduces [1] S1024) (hφ : FKind.Formats .f32)
    (hacc : (0x00000000#32 : BitVec 32) = FKind.add.neutral .f32 hφ) (a : Fin 1024) :
    multiReduction .add [1] S1024 X 0x00000000#32 h hφ hacc (ix1 a) = ∑ j : Fin 2048, X (ix2 a j) := by
  rw [Ideal.multiReduction_add_single]
  exact Finset.sum_congr rfl fun j _ => congrArg X (lift_row h a j)

/-! ## The two matrix products -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Query rows against key rows, both contracted along their 64 columns: entry (a, j) is the dot product of query
    row `a` and key row `j`. -/
theorem scores_apply (A : FVec Ideal S1024x64 .bf16) (B : FVec Ideal S2048x64 .bf16) (a : Fin 1024) (j : Fin 2048) :
    matmul (F := Ideal) dot_S1024x64_S2048x64_S1024x2048_1_1_0_0_n_n none A B (constant S1024x2048 .f32 0x00000000#32) (ix2 a j)
      = ∑ d : Fin 64, A (ix2 a d) * B (ix2 j d) := by
  simp only [matmul]
  rw [Ideal.matmul_constant_zero_apply, ← Equiv.sum_comp (contrEquiv1 dot_S1024x64_S2048x64_S1024x2048_1_1_0_0_n_n 64 rfl rfl).symm]
  refine Finset.sum_congr rfl fun d _ => ?_
  have hk := contrEquiv1_symm_val dot_S1024x64_S2048x64_S1024x2048_1_1_0_0_n_n 64 rfl rfl d
  have el : dot_S1024x64_S2048x64_S1024x2048_1_1_0_0_n_n.lhsIdx (ix2 a j) ((contrEquiv1 dot_S1024x64_S2048x64_S1024x2048_1_1_0_0_n_n 64 rfl rfl).symm d) = ix2 a d := funext fun i => Fin.ext (by
    match i with
    | ⟨0, _⟩ => exact lhs_qk_0 _ _
    | ⟨1, _⟩ => exact (lhs_qk_1 _ _).trans hk)
  have er : dot_S1024x64_S2048x64_S1024x2048_1_1_0_0_n_n.rhsIdx (ix2 a j) ((contrEquiv1 dot_S1024x64_S2048x64_S1024x2048_1_1_0_0_n_n 64 rfl rfl).symm d) = ix2 j d := funext fun i => Fin.ext (by
    match i with
    | ⟨0, _⟩ => exact rhs_qk_0 _ _
    | ⟨1, _⟩ => exact (rhs_qk_1 _ _).trans hk)
  rw [el, er]

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- Weights against value rows, contracted along the 2048 columns of the weights: entry (a, e) is the sum over the
    columns `j` of weight (a, j) times value (j, e). -/
theorem weighted_apply (A : FVec Ideal S1024x2048 .bf16) (B : FVec Ideal S2048x64 .bf16) (a : Fin 1024) (e : Fin 64) :
    matmul (F := Ideal) dot_S1024x2048_S2048x64_S1024x64_1_0_0_1_n_n none A B (constant S1024x64 .f32 0x00000000#32) (ix2 a e)
      = ∑ j : Fin 2048, A (ix2 a j) * B (ix2 j e) := by
  simp only [matmul]
  rw [Ideal.matmul_constant_zero_apply, ← Equiv.sum_comp (contrEquiv1 dot_S1024x2048_S2048x64_S1024x64_1_0_0_1_n_n 2048 rfl rfl).symm]
  refine Finset.sum_congr rfl fun j _ => ?_
  have hk := contrEquiv1_symm_val dot_S1024x2048_S2048x64_S1024x64_1_0_0_1_n_n 2048 rfl rfl j
  have el : dot_S1024x2048_S2048x64_S1024x64_1_0_0_1_n_n.lhsIdx (ix2 a e) ((contrEquiv1 dot_S1024x2048_S2048x64_S1024x64_1_0_0_1_n_n 2048 rfl rfl).symm j) = ix2 a j := funext fun i => Fin.ext (by
    match i with
    | ⟨0, _⟩ => exact lhs_pv_0 _ _
    | ⟨1, _⟩ => exact (lhs_pv_1 _ _).trans hk)
  have er : dot_S1024x2048_S2048x64_S1024x64_1_0_0_1_n_n.rhsIdx (ix2 a e) ((contrEquiv1 dot_S1024x2048_S2048x64_S1024x64_1_0_0_1_n_n 2048 rfl rfl).symm j) = ix2 j e := funext fun i => Fin.ext (by
    match i with
    | ⟨0, _⟩ => exact (rhs_pv_0 _ _).trans hk
    | ⟨1, _⟩ => exact rhs_pv_1 _ _)
  rw [el, er]

/-! ## The body's stored block -/

/-- The block of scores: query rows against key rows. -/
def scoreBlock (x0 : FVec Ideal S1x1024x64 .bf16) (x1 : FVec Ideal S1x2048x64 .bf16) : FVec Ideal S1024x2048 .f32 :=
  matmul (F := Ideal) dot_S1024x64_S2048x64_S1024x2048_1_1_0_0_n_n none (shapeCast S1024x64 x0 shapeCasts_S1x1024x64_S1024x64)
    (shapeCast S2048x64 x1 shapeCasts_S1x2048x64_S2048x64) (constant S1024x2048 .f32 0x00000000#32)

/-- The block of weights: the exponential of each score's distance below its row's largest. -/
def weightBlock (x0 : FVec Ideal S1x1024x64 .bf16) (x1 : FVec Ideal S1x2048x64 .bf16) : FVec Ideal S1024x2048 .f32 :=
  exp (subf (scoreBlock x0 x1) (broadcastTo S1024x2048 (shapeCast S1024x1 (multiReduction .maximumf [1] S1024 (scoreBlock x0 x1)
    0xFF800000#32 reduces_S1024x2048_S1024 (.inl rfl) rfl) shapeCasts_S1024_S1024x1) broadcasts_S1024x1_S1024x2048))

/-- The body's payload is the weighted value columns over the row sums of the weights, stored with a leading unit axis. -/
theorem payload_eq (x0 : FVec Ideal S1x1024x64 .bf16) (x1 x2 : FVec Ideal S1x2048x64 .bf16) :
    k0_pay1 (F := Ideal) x0 x1 x2
      = shapeCast S1x1024x64 (divf (matmul (F := Ideal) dot_S1024x2048_S2048x64_S1024x64_1_0_0_1_n_n none
            (truncf .bf16 (weightBlock x0 x1) bitsLt_bf16_f32) (shapeCast S2048x64 x2 shapeCasts_S1x2048x64_S2048x64)
            (constant S1024x64 .f32 0x00000000#32))
          (broadcastTo S1024x64 (shapeCast S1024x1 (multiReduction .add [1] S1024 (weightBlock x0 x1) 0x00000000#32
            reduces_S1024x2048_S1024 (.inl rfl) rfl) shapeCasts_S1024_S1024x1) broadcasts_S1024x1_S1024x64))
        shapeCasts_S1024x64_S1x1024x64 := rfl

/-- Entry (a, j) of the scores is the dot product of query row `a` of the block with key row `j`. -/
theorem scoreBlock_apply (x0 : FVec Ideal S1x1024x64 .bf16) (x1 : FVec Ideal S1x2048x64 .bf16) (a : Fin 1024) (j : Fin 2048) :
    scoreBlock x0 x1 (ix2 a j) = ∑ d : Fin 64, x0 (ix3 0 a d) * x1 (ix3 0 j d) := by
  unfold scoreBlock
  rw [scores_apply]
  exact Finset.sum_congr rfl fun d _ => by rw [dropUnit_apply, dropUnit_apply]

/-- Entry (a, j) of the weights is the weight of column `j` in row `a` of the scores. -/
theorem weightBlock_apply (x0 : FVec Ideal S1x1024x64 .bf16) (x1 : FVec Ideal S1x2048x64 .bf16) (a : Fin 1024) (j : Fin 2048) :
    weightBlock x0 x1 (ix2 a j) = weight (fun k : Fin 2048 => scoreBlock x0 x1 (ix2 a k)) j := by
  unfold weightBlock weight
  show Ideal.exp (scoreBlock x0 x1 (ix2 a j) - broadcastTo S1024x2048 _ _ (ix2 a j)) = _
  rw [column_apply]
  exact congrArg (fun M => Ideal.exp (scoreBlock x0 x1 (ix2 a j) - M)) (rowMax_apply _ _ _ _ a)

/-- THE STORED BLOCK at (z, a, e): the deferred-normalisation mean of row `a`'s scores against value column `e`. -/
theorem payload_apply (x0 : FVec Ideal S1x1024x64 .bf16) (x1 x2 : FVec Ideal S1x2048x64 .bf16) (z : Fin 1) (a : Fin 1024) (e : Fin 64) :
    k0_pay1 (F := Ideal) x0 x1 x2 (ix3 z a e)
      = attend (fun j : Fin 2048 => ∑ d : Fin 64, x0 (ix3 0 a d) * x1 (ix3 0 j d)) (fun j : Fin 2048 => x2 (ix3 0 j e)) := by
  rw [payload_eq]
  refine (addUnit_apply _ _ z a e).trans ?_
  show Ideal.div (matmul (F := Ideal) dot_S1024x2048_S2048x64_S1024x64_1_0_0_1_n_n none _ _ _ (ix2 a e)) (broadcastTo S1024x64 _ _ (ix2 a e)) = _
  rw [weighted_apply, column_apply]
  refine (congrArg (Ideal.div _) (rowSum_apply _ _ _ _ a)).trans ?_
  unfold attend
  have hs : (fun k : Fin 2048 => scoreBlock x0 x1 (ix2 a k)) = fun j : Fin 2048 => ∑ d : Fin 64, x0 (ix3 0 a d) * x1 (ix3 0 j d) :=
    funext fun k => scoreBlock_apply x0 x1 a k
  simp only [truncf_apply, dropUnit_apply, weightBlock_apply, hs]

end Cert.KernelIdeal.Row

end
-- ==== Proof.Region.lean ====
/-
  The region's output array.

  The pallas_call runs over 64 (batch, head) slices times 2 halves of the 2048 query rows. At point (s, h) it is given
  query rows 1024·h … 1024·h + 1023 of slice s and ALL key rows and value rows of slice s, and writes rows
  1024·h … of slice s of the output. So element (s, r, e) of the output depends on query row r, every key row and every
  value row of slice s only: it is the deferred-normalisation mean of row r's scores against value column e
  (`regionAt`). Every point's written block is a block of that one function of the three input arrays, and the 128
  blocks tile the output array, so the array after the region is that function.
-/
import proofs.«419945_j7215545057961_3_alg».proof.Proof.Gen.KernelIdeal.Frame
import proofs.«419945_j7215545057961_3_alg».proof.Proof.Row
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Cert.Softmax
open Idealize.ShloMosaic.Pipeline (Dat)

/-! ## One function of the three input arrays -/

/-- Element (s, r, e): row `r` of slice `s` attends over all 2048 key rows of the slice, against value column `e`. -/
def regionAt (q k v : FVec Ideal S64x2048x64 .bf16) (s : Fin 64) (r : Fin 2048) (e : Fin 64) : EReal :=
  attend (fun j : Fin 2048 => ∑ d : Fin 64, q (ix3 s r d) * k (ix3 s j d)) (fun j : Fin 2048 => v (ix3 s j e))

/-- The output array as a function of the three input arrays. -/
def regionOut (q k v : FVec Ideal S64x2048x64 .bf16) : FVec Ideal S64x2048x64 .f32 :=
  fun i => regionAt q k v (i 0) (i 1) (i 2)

/-- It is read at an index through the index's coordinates as naturals. -/
theorem regionOut_at (q k v : FVec Ideal S64x2048x64 .bf16) (s : Fin 64) (r : Fin 2048) (e : Fin 64) (i : S64x2048x64.Idx)
    (h0 : (i 0).val = s.val) (h1 : (i 1).val = r.val) (h2 : (i 2).val = e.val) : regionOut q k v i = regionAt q k v s r e := by
  obtain rfl : i = ix3 s r e := funext fun a => Fin.ext (by match a with | ⟨0, _⟩ => exact h0 | ⟨1, _⟩ => exact h1 | ⟨2, _⟩ => exact h2)
  rfl

variable (m : (ℓ : Loc nD τ sig) → Buf (Elt Ideal) ℓ) (ρ : Dev nD → PrngReg)

/-! ## The index maps, decided over the 128 points -/

theorem hz : (![0, 0, 0] : Fin 3 → Nat) = fun _ => 0 := funext fun a => by fin_cases a <;> rfl

/-- The query block moves with the output block; the key and value blocks follow the slice only and start at row 0;
    no block is offset along the 64 columns; the output's slice index is below 64 and its half below 2. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (2 : Fin 3) = 0
    ∧ win0_3.index t (0 : Fin 3) ≤ 63
    ∧ win0_3.index t (1 : Fin 3) ≤ 1 :=
  (by decide +kernel : ∀ t : Fin grid0.N, _)

/-- Every (slice, half) is some point's output block. -/
theorem idx_onto : ∀ (q0 : Fin 64) (q1 : Fin 2), ∃ t : Fin cfg0.N, win0_3.index t = ![q0.val, q1.val, 0] :=
  (by decide +kernel : ∀ (q0 : Fin 64) (q1 : Fin 2), ∃ t : Fin grid0.N, win0_3.index t = ![q0.val, q1.val, 0])

/-! ## Each input block is its array read where the output's block says -/

/-- Query row `a` of the block at point `t` is row `half · 1024 + a` of the point's slice. -/
theorem read_q (c : Dev nD) (t : Fin cfg0.N) (s : Fin 64) (r : Fin 2048) (a : Fin 1024) (d : Fin 64)
    (hs : win0_3.index t (0 : Fin 3) = s.val) (hr : win0_3.index t (1 : Fin 3) * 1024 + a.val = r.val) :
    iblk m c 0 t (ix3 0 a d) = V m c main_v3 (ix3 s r d) := by
  obtain ⟨e00, e01, e02, -⟩ := idx_facts t
  show V m c main_v3 (((cfg0.win 0).blk t).view.emb (ix3 0 a d)) = V m c main_v3 (ix3 s r d)
  refine congrArg (V m c main_v3) (funext fun ax => Fin.ext ?_)
  match ax with
  | ⟨0, _⟩ => show win0_0.index t (0 : Fin 3) * 1 + 1 * 0 = s.val; omega
  | ⟨1, _⟩ => show win0_0.index t (1 : Fin 3) * 1024 + 1 * a.val = r.val; omega
  | ⟨2, _⟩ => show win0_0.index t (2 : Fin 3) * 64 + 1 * d.val = d.val; omega

/-- Key row `j` of the block at point `t` is key row `j` of the point's slice. -/
theorem read_k (c : Dev nD) (t : Fin cfg0.N) (s : Fin 64) (j : Fin 2048) (d : Fin 64)
    (hs : win0_3.index t (0 : Fin 3) = s.val) :
    iblk m c 1 t (ix3 0 j d) = V m c main_v5 (ix3 s j d) := by
  obtain ⟨-, -, -, e10, e11, e12, -⟩ := idx_facts t
  show V m c main_v5 (((cfg0.win 1).blk t).view.emb (ix3 0 j d)) = V m c main_v5 (ix3 s j d)
  refine congrArg (V m c main_v5) (funext fun ax => Fin.ext ?_)
  match ax with
  | ⟨0, _⟩ => show win0_1.index t (0 : Fin 3) * 1 + 1 * 0 = s.val; omega
  | ⟨1, _⟩ => show win0_1.index t (1 : Fin 3) * 2048 + 1 * j.val = j.val; omega
  | ⟨2, _⟩ => show win0_1.index t (2 : Fin 3) * 64 + 1 * d.val = d.val; omega

/-- Value row `j` of the block at point `t` is value row `j` of the point's slice. -/
theorem read_v (c : Dev nD) (t : Fin cfg0.N) (s : Fin 64) (j : Fin 2048) (e : Fin 64)
    (hs : win0_3.index t (0 : Fin 3) = s.val) :
    iblk m c 2 t (ix3 0 j e) = V m c main_v7 (ix3 s j e) := by
  obtain ⟨-, -, -, -, -, -, e20, e21, e22, -⟩ := idx_facts t
  show V m c main_v7 (((cfg0.win 2).blk t).view.emb (ix3 0 j e)) = V m c main_v7 (ix3 s j e)
  refine congrArg (V m c main_v7) (funext fun ax => Fin.ext ?_)
  match ax with
  | ⟨0, _⟩ => show win0_2.index t (0 : Fin 3) * 1 + 1 * 0 = s.val; omega
  | ⟨1, _⟩ => show win0_2.index t (1 : Fin 3) * 2048 + 1 * j.val = j.val; omega
  | ⟨2, _⟩ => show win0_2.index t (2 : Fin 3) * 64 + 1 * e.val = e.val; omega

/-! ## What a point writes back -/

/-- WHAT POINT `t` WRITES BACK is block `t` of `regionOut` of the three input arrays as the region finds them. -/
theorem flushed_eq (c : Dev nD) (t : Fin cfg0.N) :
    (dats m 0 c).flushed 3 t
      = ((cfg0.win 3).blk t).view.read (Elt Ideal) (regionOut (V m c main_v3) (V m c main_v5) (V m c main_v7)) := by
  show (cfg0.win 3).cut (grid0.coords t) ((dats m 0 c).after 3 t) = _
  rw [after0_3]
  unfold out0_3
  rw [View.canon_unit_zero hz]
  simp only [View.ld_unit_zero (S := S1x1024x64) hz, View.ld_unit_zero (S := S1x2048x64) hz]
  obtain ⟨-, -, -, -, -, -, -, -, -, e32, b0, b1⟩ := idx_facts t
  funext y
  obtain ⟨z, a, e, rfl⟩ : ∃ (z : Fin 1) (a : Fin 1024) (e : Fin 64), y = ix3 z a e := ⟨y 0, y 1, y 2, eq_ix3 y⟩
  have hz0 : z.val < 1 := z.isLt
  have ha : a.val < 1024 := a.isLt
  show k0_pay1 (F := Ideal) (iblk m c 0 t) (iblk m c 1 t) (iblk m c 2 t) (ix3 z a e)
    = regionOut (V m c main_v3) (V m c main_v5) (V m c main_v7) (((cfg0.win 3).blk t).view.emb (ix3 z a e))
  refine (Row.payload_apply (iblk m c 0 t) (iblk m c 1 t) (iblk m c 2 t) z a e).trans ?_
  refine Eq.trans ?_ (regionOut_at (V m c main_v3) (V m c main_v5) (V m c main_v7)
    ⟨win0_3.index t (0 : Fin 3), by omega⟩ ⟨win0_3.index t (1 : Fin 3) * 1024 + a.val, by omega⟩ e _ ?_ ?_ ?_).symm
  · unfold regionAt
    refine congrArg₂ attend (funext fun j => Finset.sum_congr rfl fun d _ => ?_) (funext fun j => ?_)
    · exact congrArg₂ (· * ·) (read_q m c t _ _ a d rfl rfl) (read_k m c t _ j d rfl)
    · exact read_v m c t _ j e rfl
  · show win0_3.index t (0 : Fin 3) * 1 + 1 * z.val = win0_3.index t (0 : Fin 3); omega
  · show win0_3.index t (1 : Fin 3) * 1024 + 1 * a.val = win0_3.index t (1 : Fin 3) * 1024 + a.val; omega
  · show win0_3.index t (2 : Fin 3) * 64 + 1 * e.val = e.val; omega

/-! ## The blocks tile the array -/

/-- An index of the output array is in point `t`'s block iff each coordinate is in the block's range on its axis. -/
theorem mem_blk (t : Fin cfg0.N) (i : S64x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v8).slice (win0_3.rect t)).set ↔ _
  rw [View.set_slice_whole, Rect.mem_set_unit]
  exact Iff.rfl

/-- Element (s, r, e) is written by the point of slice `s` and half `r / 1024`. -/
theorem cover (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- THE OUTPUT ARRAY after the region is `regionOut` of the three input arrays as the region finds them. -/
theorem final (c : Dev nD) :
    (dats m 0 c).arrAt 3 cfg0.N = regionOut (V m c main_v3) (V m c main_v5) (V m c main_v7) :=
  (dats m 0 c).arrAt_eq_of_cover 3 _ (fun t _ => flushed_eq m c t) cover

end Cert.KernelIdeal.Region

end
-- ==== Proof.Spec.lean ====
/-
  Scaled dot-product attention over [4, 16, 2048, 64] arrays, as one function of the three argument arrays.

  Element (b, h, r, e) of the result: query row `r` of (batch b, head h), each entry scaled by the factor both programs
  spell (one eighth, `1 / √64`), is dotted with every key row `j` of the same (b, h); the 2048 scores' weights are the
  exponentials of their distances below the largest; the result is the weighted mean of value column `e`, the division
  by the sum of the weights done once at the end. Both programs are shown to compute this function: the kernel
  literally, the reference after moving the scale out of the dot product and the normalisation into the sum
  (which needs real entries).
-/
import proofs.«419945_j7215545057961_3_alg».proof.Proof.LibSoftmax
import Idealize.ShloMosaic.Lib.ValueIdx

noncomputable section

open scoped BigOperators

namespace Cert.Spec

open Idealize.ShloMosaic Idealize.ShloMosaic.ValueIdx Cert.Softmax

/-- The scale, as the extended real its word denotes. -/
def scale : EReal := Ideal.ofBits .f32 0x3E000000#32

/-- It is the real one eighth. -/
theorem scale_eq : scale = ((0.125 : ℝ) : EReal) := ofBits_eighth

/-- An argument or result array. -/
abbrev Arr : Type := FVec Ideal ⟨4, ![4, 16, 2048, 64]⟩ .f32

/-- Element (b, h, r, e) of the attention output. -/
def outAt (q k v : Arr) (b : Fin 4) (h : Fin 16) (r : Fin 2048) (e : Fin 64) : EReal :=
  attend (fun j : Fin 2048 => ∑ d : Fin 64, (q (ix4 b h r d) * scale) * k (ix4 b h j d)) (fun j : Fin 2048 => v (ix4 b h j e))

/-- The attention output. -/
def out (q k v : Arr) : Arr := fun i => outAt q k v (i 0) (i 1) (i 2) (i 3)

theorem out_apply (q k v : Arr) (b : Fin 4) (h : Fin 16) (r : Fin 2048) (e : Fin 64) :
    out q k v (ix4 b h r e) = outAt q k v b h r e := rfl

end Cert.Spec

end
-- ==== Proof.Program.lean ====
/-
  The kernel program, whole: its result array is the attention function of its three arguments.

  Before the region the host scales the queries by one eighth and views each [4, 16, 2048, 64] argument as
  [64, 2048, 64], (batch b, head h) becoming slice 16·b + h; after it the host views the region's [64, 2048, 64]
  output back as [4, 16, 2048, 64]. A view keeps the row-major position, so element (b, h, r, e) of the result is
  element (16·b + h, r, e) of the region's output, whose query, key and value rows are those of (b, h).
-/
import proofs.«419945_j7215545057961_3_alg».proof.Proof.Region
import proofs.«419945_j7215545057961_3_alg».proof.Proof.Spec
import Idealize.ShloMosaic.Lib.StableHlo.Run

set_option maxRecDepth 16384

noncomputable section

namespace Cert.KernelIdeal.Program

open Cert.KernelIdeal Cert.KernelIdeal.Gen Idealize.ShloMosaic Idealize.ShloMosaic.TcCoe Idealize.SL.Sem
open Idealize.ShloMosaic.ValueIdx Cert.Softmax Idealize.ShloMosaic.StableHlo Cert.KernelIdeal.Region
open Idealize.ShloMosaic.Pipeline (Dat)

/-! ## The two views, read at an index -/

/-- The [64, 2048, 64] view of a [4, 16, 2048, 64] array reads (16·b + h, r, d) at (b, h, r, d). -/
theorem view_in {α : Type} (X : S4x16x2048x64.Idx → α) (hc : S4x16x2048x64.ShapeCasts S64x2048x64)
    (b : Fin 4) (h : Fin 16) (r : Fin 2048) (d : Fin 64) (s : Fin 64) (hs : s.val = b.val * 16 + h.val) :
    shapeCast S64x2048x64 X hc (ix3 s r d) = X (ix4 b h r d) := by
  refine shapeCast_apply X hc (ix3 s r d) (ix4 b h r d) ?_
  rw [Shape.rowMajor_val_four, Shape.rowMajor_val_three]
  show ((b.val * 16 + h.val) * 2048 + r.val) * 64 + d.val = (s.val * 2048 + r.val) * 64 + d.val
  rw [hs]

/-- The [4, 16, 2048, 64] view of a [64, 2048, 64] array reads (b, h, r, e) at (16·b + h, r, e). -/
theorem view_out {α : Type} (Y : S64x2048x64.Idx → α) (hc : S64x2048x64.ShapeCasts S4x16x2048x64)
    (b : Fin 4) (h : Fin 16) (r : Fin 2048) (e : Fin 64) (s : Fin 64) (hs : s.val = b.val * 16 + h.val) :
    shapeCast S4x16x2048x64 Y hc (ix4 b h r e) = Y (ix3 s r e) := by
  refine shapeCast_apply Y hc (ix4 b h r e) (ix3 s r e) ?_
  rw [Shape.rowMajor_val_four, Shape.rowMajor_val_three]
  show (s.val * 2048 + r.val) * 64 + e.val = ((b.val * 16 + h.val) * 2048 + r.val) * 64 + e.val
  rw [hs]

variable (m : (ℓ : Loc nD τ sig) → Buf (Elt Ideal) ℓ) (ρ : Dev nD → PrngReg)

/-! ## The region's three input arrays, from the arguments -/

/-- The queries as the region finds them: scaled, then viewed [64, 2048, 64]. -/
theorem queries_eq (c : Dev nD) : (V m c main_v3 : FVec Ideal S64x2048x64 .bf16)
    = shapeCast S64x2048x64 (truncf .bf16 (mulf (m ((c.tc : Thread nD τ).loc main_arg0))
        (broadcastInDim S4x16x2048x64 ![] bcast_S_S4x16x2048x64 (constant (F := Ideal) S_ .f32 0x3E000000#32))) bitsLt_bf16_f32)
      shapeCasts_S4x16x2048x64_S64x2048x64 := by
  show StableHlo.after hostOps0 (fun b => m (c, b)) (Proc.devRef .tc main_v3) = _
  after_results
  rfl

/-- The keys as the region finds them: viewed [64, 2048, 64]. -/
theorem keys_eq (c : Dev nD) : (V m c main_v5 : FVec Ideal S64x2048x64 .bf16)
    = shapeCast S64x2048x64 (truncf (F := Ideal) .bf16 (m ((c.tc : Thread nD τ).loc main_arg1)) bitsLt_bf16_f32)
      shapeCasts_S4x16x2048x64_S64x2048x64 := by
  show StableHlo.after hostOps0 (fun b => m (c, b)) (Proc.devRef .tc main_v5) = _
  after_results
  rfl

/-- The values as the region finds them: viewed [64, 2048, 64]. -/
theorem values_eq (c : Dev nD) : (V m c main_v7 : FVec Ideal S64x2048x64 .bf16)
    = shapeCast S64x2048x64 (truncf (F := Ideal) .bf16 (m ((c.tc : Thread nD τ).loc main_arg2)) bitsLt_bf16_f32)
      shapeCasts_S4x16x2048x64_S64x2048x64 := by
  show StableHlo.after hostOps0 (fun b => m (c, b)) (Proc.devRef .tc main_v7) = _
  after_results
  rfl

/-! ## The result array -/

/-- After the host's last line the result is the region's output, viewed [4, 16, 2048, 64]. -/
theorem tail_eq (c : Dev nD) :
    Pipeline.afterTail₀ cfgs (dats m) 0 (V0 m) [hostOps1] c main_v9
      = shapeCast S4x16x2048x64 (regionOut (V m c main_v3) (V m c main_v5) (V m c main_v7)) shapeCasts_S64x2048x64_S4x16x2048x64 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = regionOut (V m c main_v3) (V m c main_v5) (V m c main_v7) :=
    (Pipeline.withArrays_arr spec0 launch0.win.arr_inj c _ _ 3).trans (final m c)
  rw [e]
  rfl

/-- THE RESULT is the attention function of the three arguments. -/
theorem result_eq (c : Dev nD) :
    Pipeline.afterTail₀ cfgs (dats m) 0 (V0 m) [hostOps1] c main_v9
      = Spec.out (m ((c.tc : Thread nD τ).loc main_arg0)) (m ((c.tc : Thread nD τ).loc main_arg1)) (m ((c.tc : Thread nD τ).loc main_arg2)) := by
  rw [tail_eq, queries_eq, keys_eq, values_eq]
  funext i
  obtain ⟨b, h, r, e, rfl⟩ : ∃ (b : Fin 4) (h : Fin 16) (r : Fin 2048) (e : Fin 64), i = ix4 b h r e := ⟨i 0, i 1, i 2, i 3, eq_ix4 i⟩
  have hb : b.val < 4 := b.isLt
  have hh : h.val < 16 := h.isLt
  rw [view_out _ _ b h r e ⟨b.val * 16 + h.val, by omega⟩ rfl, Spec.out_apply]
  refine (regionOut_at _ _ _ ⟨b.val * 16 + h.val, by omega⟩ r e _ rfl rfl rfl).trans ?_
  unfold regionAt Spec.outAt
  refine congrArg₂ attend (funext fun j => Finset.sum_congr rfl fun d _ => ?_) (funext fun j => ?_)
  · rw [view_in _ _ b h r d _ rfl, view_in _ _ b h j d _ rfl]
    rfl
  · rw [view_in _ _ b h j e _ rfl]
    rfl

/-! ## The run -/

/-- Every weakly fair execution of the kernel program terminates with its result array at the attention function of
    the arguments, the arguments unchanged. -/
theorem run : θ_run defs (onTc (τ := τ) (main (F := Ideal))) ⟨m, fun _ => 0, ρ⟩ fun r => ∀ c : Dev nD,
      r.2.mem ((c.tc : Thread nD τ).loc main_v9)
        = Spec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Program

end
-- ==== Proof.Reference.lean ====
/-
  The reference program's result, read at one element, and why it is the attention function.

  The reference takes the scores as the plain dot products scaled AFTERWARDS by one eighth, subtracts each row's
  largest score, exponentiates, divides every weight by its row's sum, and only then multiplies into the values.
  Read at element (b, h, r, e) that is the normalise-first mean of row `r`'s scores against value column `e`.
  Where all three arguments hold real numbers, the scale moves inside the dot product and the normalisation moves
  outside the sum over the keys, which is the attention function as the kernel computes it.
-/
import proofs.«419945_j7215545057961_3_alg».proof.Proof.Gen.ReferenceIdeal.Read
import proofs.«419945_j7215545057961_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Softmax

/-! ## The scores -/

theorem lidx_scores (b : Fin 4) (h : Fin 16) (r j : Fin 2048) (d : Fin 64) : lidx_main_v0 (ix4 b h r j) d = ix4 b h r d :=
  funext fun a => Fin.ext (by match a with | ⟨0, _⟩ => rfl | ⟨1, _⟩ => rfl | ⟨2, _⟩ => rfl | ⟨3, _⟩ => rfl)
theorem ridx_scores (b : Fin 4) (h : Fin 16) (r j : Fin 2048) (d : Fin 64) : ridx_main_v0 (ix4 b h r j) d = ix4 b h j d :=
  funext fun a => Fin.ext (by match a with | ⟨0, _⟩ => rfl | ⟨1, _⟩ => rfl | ⟨2, _⟩ => rfl | ⟨3, _⟩ => rfl)

/-- Score (b, h, r, j): the dot product of query row `r` and key row `j`, then scaled. -/
theorem scores_apply (x0 x1 : Spec.Arr) (b : Fin 4) (h : Fin 16) (r j : Fin 2048) :
    val_main_v2 (F := Ideal) x0 x1 (ix4 b h r j) = (∑ d : Fin 64, x0 (ix4 b h r d) * x1 (ix4 b h j d)) * Spec.scale := by
  rw [val_main_v2_apply, val_main_v0_apply, val_main_v1_apply, val_main_cst_apply]
  simp only [lidx_scores, ridx_scores]
  rfl

/-! ## The row's largest score -/

theorem lift_row (hr : S4x16x2048x2048.Reduces [3] S4x16x2048) (b : Fin 4) (h : Fin 16) (r j : Fin 2048) :
    hr.lift (ix3 b h r) j = ix4 b h r j :=
  funext fun a => Fin.ext (by match a with | ⟨0, _⟩ => rfl | ⟨1, _⟩ => rfl | ⟨2, _⟩ => rfl | ⟨3, _⟩ => rfl)

/-- The largest score of row (b, h, r): the reduction's own maximum from −∞, taken once more against −∞. -/
theorem rowMax_apply (x0 x1 : Spec.Arr) (b : Fin 4) (h : Fin 16) (r : Fin 2048) :
    val_main_v5 (F := Ideal) x0 x1 (ix3 b h r) = rowMax (fun j : Fin 2048 => val_main_v2 (F := Ideal) x0 x1 (ix4 b h r j)) := by
  have hr : S4x16x2048x2048.Reduces [3] S4x16x2048 := by decide
  rw [val_main_v5_apply, val_main_v4_apply, val_main_cst_1_apply]
  unfold val_main_v3
  rw [Host.reduce_eq_fold_single FloatOps.maximumf _ _ reducesTo_S4x16x2048x2048_S4x16x2048_d3 hr h_S_]
  have hf : (val_main_v2 (F := Ideal) x0 x1 ∘ hr.lift (ix3 b h r)) = fun j : Fin 2048 => val_main_v2 (F := Ideal) x0 x1 (ix4 b h r j) :=
    funext fun j => congrArg (val_main_v2 (F := Ideal) x0 x1) (lift_row hr b h r j)
  rw [hf]
  unfold rowMax
  show max (Ideal.ofBits .f32 0xFF800000#32) (Finset.fold max (Ideal.ofBits .f32 0xFF800000#32) _ _) = _
  rw [ofBits_neg_inf]
  exact max_eq_right bot_le

/-! ## The weights and their row sums -/

/-- Weight (b, h, r, j): the exponential of the score's distance below its row's largest. -/
theorem weight_apply (x0 x1 : Spec.Arr) (b : Fin 4) (h : Fin 16) (r j : Fin 2048) :
    val_main_v9 (F := Ideal) x0 x1 (ix4 b h r j) = weight (fun k : Fin 2048 => val_main_v2 (F := Ideal) x0 x1 (ix4 b h r k)) j := by
  have hi : idx_main_v6 (idx_main_v7 (ix4 b h r j)) = ix3 b h r :=
    funext fun a => Fin.ext (by match a with | ⟨0, _⟩ => rfl | ⟨1, _⟩ => rfl | ⟨2, _⟩ => rfl)
  rw [val_main_v9_apply, val_main_v8_apply, val_main_v7_apply, val_main_v6_apply, hi, rowMax_apply]
  rfl

/-- The row sum of the weights, spread back along the row. -/
theorem weightSum_apply (x0 x1 : Spec.Arr) (b : Fin 4) (h : Fin 16) (r j : Fin 2048) :
    val_main_v12 (F := Ideal) x0 x1 (ix4 b h r j) = ∑ k : Fin 2048, val_main_v9 (F := Ideal) x0 x1 (ix4 b h r k) := by
  have hi : idx_main_v11 (idx_main_v12 (ix4 b h r j)) = ix3 b h r :=
    funext fun a => Fin.ext (by match a with | ⟨0, _⟩ => rfl | ⟨1, _⟩ => rfl | ⟨2, _⟩ => rfl)
  have hk : ∀ k : Fin 2048, idx_main_v10 (ix3 b h r) k = ix4 b h r k := fun k =>
    funext fun a => Fin.ext (by match a with | ⟨0, _⟩ => rfl | ⟨1, _⟩ => rfl | ⟨2, _⟩ => rfl | ⟨3, _⟩ => rfl)
  rw [val_main_v12_apply, val_main_v11_apply, hi, val_main_v10_apply, val_main_cst_2_apply]
  simp only [hk]
  show Ideal.ofBits .f32 0x00000000#32 + _ = _
  rw [Ideal.ofBits_zero_f32, zero_add]

/-! ## The result -/

/-- Element (b, h, r, e) of the reference's result: the normalise-first mean of row `r`'s scaled scores against
    value column `e`. -/
theorem result_apply (x0 x1 x2 : Spec.Arr) (b : Fin 4) (h : Fin 16) (r : Fin 2048) (e : Fin 64) :
    val_main_v14 (F := Ideal) x0 x1 x2 (ix4 b h r e)
      = attendNormalised (fun j : Fin 2048 => (∑ d : Fin 64, x0 (ix4 b h r d) * x1 (ix4 b h j d)) * Spec.scale)
          (fun j : Fin 2048 => x2 (ix4 b h j e)) := by
  rw [val_main_v14_apply]
  unfold attendNormalised
  have hs : (fun j : Fin 2048 => val_main_v2 (F := Ideal) x0 x1 (ix4 b h r j))
      = fun j : Fin 2048 => (∑ d : Fin 64, x0 (ix4 b h r d) * x1 (ix4 b h j d)) * Spec.scale :=
    funext fun j => scores_apply x0 x1 b h r j
  refine Finset.sum_congr rfl fun k _ => ?_
  have hl : lidx_main_v14 (ix4 b h r e) k = ix4 b h r k :=
    funext fun a => Fin.ext (by match a with | ⟨0, _⟩ => rfl | ⟨1, _⟩ => rfl | ⟨2, _⟩ => rfl | ⟨3, _⟩ => rfl)
  have hr : ridx_main_v14 (ix4 b h r e) k = ix4 b h k e :=
    funext fun a => Fin.ext (by match a with | ⟨0, _⟩ => rfl | ⟨1, _⟩ => rfl | ⟨2, _⟩ => rfl | ⟨3, _⟩ => rfl)
  rw [hl, hr, val_main_v13_apply, weightSum_apply]
  simp only [weight_apply, hs]
  rfl

/-- On real arguments the reference's result IS the attention function: the scale moves into the dot product and the
    normalisation out of the sum over the keys. -/
theorem result_eq (x0 x1 x2 : Spec.Arr) (h0 : ∀ i, ∃ r : ℝ, x0 i = (r : EReal)) (h1 : ∀ i, ∃ r : ℝ, x1 i = (r : EReal))
    (h2 : ∀ i, ∃ r : ℝ, x2 i = (r : EReal)) : val_main_v14 (F := Ideal) x0 x1 x2 = Spec.out x0 x1 x2 := by
  funext i
  obtain ⟨b, h, r, e, rfl⟩ : ∃ (b : Fin 4) (h : Fin 16) (r : Fin 2048) (e : Fin 64), i = ix4 b h r e := ⟨i 0, i 1, i 2, i 3, eq_ix4 i⟩
  rw [result_apply, Spec.out_apply]
  unfold Spec.outAt
  have hs : (fun j : Fin 2048 => (∑ d : Fin 64, x0 (ix4 b h r d) * x1 (ix4 b h j d)) * Spec.scale)
      = fun j : Fin 2048 => ∑ d : Fin 64, (x0 (ix4 b h r d) * Spec.scale) * x1 (ix4 b h j d) :=
    funext fun j => by
      rw [Spec.scale_eq]
      exact (scaled_dot (fun d : Fin 64 => x0 (ix4 b h r d)) (fun d : Fin 64 => x1 (ix4 b h j d)) 0.125 (fun d => h0 _) (fun d => h1 _)).symm
  rw [hs]
  refine attendNormalised_eq_attend (by decide) _ _ (fun j => ?_) (fun j => h2 _)
  rw [Spec.scale_eq]
  exact scaled_dot_real (fun d : Fin 64 => x0 (ix4 b h r d)) (fun d : Fin 64 => x1 (ix4 b h j d)) 0.125 (fun d => h0 _) (fun d => h1 _)

end Cert.ReferenceIdeal.RefValue

end
-- ==== Proof.Finite.lean ====
/-
  Finite inputs are real.

  The precondition says, array by array, that every entry's absolute value compares below +∞. On the extended reals
  the absolute value of −∞ and of +∞ is +∞, which is not below itself, so an entry that passes is a real number.
  The three tests are joined by `and`, and each is an `and` over all the entries of one array.
-/
import proofs.«419945_j7215545057961_3_alg».proof.Pre_finite_inputs
import Idealize.ShloMosaic.PureOps.Ideal
import Idealize.ShloMosaic.Lib.Affine
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- The word `0x7F800000` denotes +∞. -/
theorem ofBits_pos_inf : Ideal.ofBits .f32 0x7F800000#32 = ⊤ := by
  simp [Ideal.ofBits, Ideal.ieee]

/-- An extended real whose absolute value compares below +∞ is a real. -/
theorem real_of_abs_lt (x : EReal) (h : Ideal.cmp .olt (max x (-x)) (Ideal.ofBits .f32 0x7F800000#32) = 1#1) :
    ∃ r : ℝ, x = (r : EReal) := by
  rw [ofBits_pos_inf] at h
  induction x using EReal.rec with
  | bot => simp [Ideal.cmp] at h
  | top => simp [Ideal.cmp] at h
  | coe r => exact ⟨r, rfl⟩

variable [Cert.Pre_finite_inputs.Facts]

/-- Where the precondition holds, every entry of each of the three arrays is a real. -/
theorem entries_real (a0 a1 a2 : FVec Ideal S4x16x2048x64 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, hc⟩ := IntOp.andi_eq_one.mp h0
  obtain ⟨ha, hb⟩ := IntOp.andi_eq_one.mp h01
  exact ⟨fun i => real_of_abs_lt (a0 i) (Host.reduce_andi_all _ _ _ _ _ ha i),
    fun i => real_of_abs_lt (a1 i) (Host.reduce_andi_all _ _ _ _ _ hb i),
    fun i => real_of_abs_lt (a2 i) (Host.reduce_andi_all _ _ _ _ _ hc i)⟩

end Cert.Finite

end
-- ==== Proof.lean ====
/-
  Scaled dot-product attention over [4, 16, 2048, 64] float arrays: a fused kernel against the einsum / softmax reference.

  The kernel scales the queries by one eighth first, takes each (batch, head)'s scores block by block, and divides the
  weighted sum of the value rows by the sum of the weights ONCE, after the second matrix product. The reference scales
  the dot products afterwards and normalises the weights before the second product. On the extended reals both are
  `Spec.out` of the three arguments wherever the arguments are real — which the precondition gives — because a real
  scale moves across a finite dot product of reals and a division by a nonzero real sum moves across a finite sum of
  reals; every weight is the exponential of a real, so the sum of a row's 2048 weights is positive.

  The frames of the two kernel programs are the generated ones; the reference's frame is its generated run with the
  result dropped; the idealization rewrote nothing, so `preserves` is `True`.
-/
import proofs.«419945_j7215545057961_3_alg».proof.Defs
import proofs.«419945_j7215545057961_3_alg».proof.Proof.Gen.Kernel
import proofs.«419945_j7215545057961_3_alg».proof.Proof.Gen.Kernel.Skeleton
import proofs.«419945_j7215545057961_3_alg».proof.Proof.Gen.Kernel.Launch
import proofs.«419945_j7215545057961_3_alg».proof.Proof.Gen.Kernel.Points
import proofs.«419945_j7215545057961_3_alg».proof.Proof.Gen.Kernel.Frame
import proofs.«419945_j7215545057961_3_alg».proof.Proof.Gen.KernelIdeal
import proofs.«419945_j7215545057961_3_alg».proof.Proof.Gen.KernelIdeal.Skeleton
import proofs.«419945_j7215545057961_3_alg».proof.Proof.Gen.KernelIdeal.Launch
import proofs.«419945_j7215545057961_3_alg».proof.Proof.Gen.KernelIdeal.Points
import proofs.«419945_j7215545057961_3_alg».proof.Proof.Gen.KernelIdeal.Frame
import proofs.«419945_j7215545057961_3_alg».proof.Proof.Gen.ReferenceIdeal
import proofs.«419945_j7215545057961_3_alg».proof.Proof.Gen.Pre_finite_inputs
import proofs.«419945_j7215545057961_3_alg».proof.Proof.Gen.ReferenceIdeal.Run
import proofs.«419945_j7215545057961_3_alg».proof.Proof.Gen.ReferenceIdeal.Read
import proofs.«419945_j7215545057961_3_alg».proof.Proof.Program
import proofs.«419945_j7215545057961_3_alg».proof.Proof.Reference
import proofs.«419945_j7215545057961_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, all of them real by the precondition, the kernel program ends with
    its result at the attention function of the arguments, and the reference ends with its result at the
    normalise-first form of the same arguments, which on reals is that function. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Program.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  obtain ⟨r0, r1, r2⟩ := Cert.Finite.entries_real _ _ _ (hpre c)
  exact Cert.ReferenceIdeal.RefValue.result_eq _ _ _ r0 r1 r2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
